-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S4x2048x2048 : Shape := ⟨3, ![4, 2048, 2048]⟩
abbrev S4x2048 : Shape := ⟨2, ![4, 2048]⟩
abbrev S3x4096 : Shape := ⟨2, ![3, 4096]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : FVec F S8x4096x2048 .f32) (main_arg1 : FVec F S4x2048x2048 .f32) (main_arg2 : FVec F S4x2048 .f32) (main_arg3 : IVec S3x4096 32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  main_v13
-- ==== Kernel.lean ====
abbrev S8x4096x2048 : Shape := ⟨3, ![8, 4096, 2048]⟩
abbrev S4x2048x2048 : Shape := ⟨3, ![4, 2048, 2048]⟩
abbrev S4x2048 : Shape := ⟨2, ![4, 2048]⟩
abbrev S3x4096 : Shape := ⟨2, ![3, 4096]⟩
abbrev S4x1x2048 : Shape := ⟨3, ![4, 1, 2048]⟩
abbrev S32768x2048 : Shape := ⟨2, ![32768, 2048]⟩
abbrev S1x2048x2048 : Shape := ⟨3, ![1, 2048, 2048]⟩
abbrev S2048x2048 : Shape := ⟨2, ![2048, 2048]⟩
abbrev S1x1x2048 : Shape := ⟨3, ![1, 1, 2048]⟩
abbrev S1x2048 : Shape := ⟨2, ![1, 2048]⟩
abbrev S512x2048 : Shape := ⟨2, ![512, 2048]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 68
  | .vmem => 24
  | .smem => 0
  | _ => 0

abbrev bufTy : (tb : Table) → Fin (tcTables nBuf tb) → BufTy
  | .hbm, ⟨0, _⟩ => ⟨S8x4096x2048, .f32⟩
  | .hbm, ⟨1, _⟩ => ⟨S4x2048x2048, .f32⟩
  | .hbm, ⟨2, _⟩ => ⟨S4x2048, .f32⟩
  | .hbm, ⟨3, _⟩ => ⟨S3x4096, .i32⟩
  | .hbm, ⟨4, _⟩ => ⟨S4x2048x2048, .f32⟩
  | .hbm, ⟨5, _⟩ => ⟨S4x2048x2048, .bf16⟩
  | .hbm, ⟨6, _⟩ => ⟨S4x1x2048, .f32⟩
  | .hbm, ⟨7, _⟩ => ⟨S32768x2048, .f32⟩
  | .hbm, ⟨8, _⟩ => ⟨S1x2048x2048, .bf16⟩
  | .hbm, ⟨9, _⟩ => ⟨S2048x2048, .bf16⟩
  | .hbm, ⟨10, _⟩ => ⟨S1x1x2048, .f32⟩
  | .hbm, ⟨11, _⟩ => ⟨S1x2048, .f32⟩
  | .hbm, ⟨12, _⟩ => ⟨S32768x2048, .bf16⟩
  | .hbm, ⟨13, _⟩ => ⟨S8x4096x2048, .bf16⟩
  | .hbm, ⟨14, _⟩ => ⟨S1x4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S8x4096x2048, .bf16⟩
  | .hbm, ⟨25, _⟩ => ⟨S32768x2048, .bf16⟩
  | .hbm, ⟨26, _⟩ => ⟨S1x2048x2048, .bf16⟩
  | .hbm, ⟨27, _⟩ => ⟨S2048x2048, .bf16⟩
  | .hbm, ⟨28, _⟩ => ⟨S1x1x2048, .f32⟩
  | .hbm, ⟨29, _⟩ => ⟨S1x2048, .f32⟩
  | .hbm, ⟨30, _⟩ => ⟨S32768x2048, .bf16⟩
  | .hbm, ⟨31, _⟩ => ⟨S8x4096x2048, .bf16⟩
  | .hbm, ⟨32, _⟩ => ⟨S1x4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S8x4096x2048, .bf16⟩
  | .hbm, ⟨43, _⟩ => ⟨S32768x2048, .bf16⟩
  | .hbm, ⟨44, _⟩ => ⟨S1x2048x2048, .bf16⟩
  | .hbm, ⟨45, _⟩ => ⟨S2048x2048, .bf16⟩
  | .hbm, ⟨46, _⟩ => ⟨S1x1x2048, .f32⟩
  | .hbm, ⟨47, _⟩ => ⟨S1x2048, .f32⟩
  | .hbm, ⟨48, _⟩ => ⟨S32768x2048, .bf16⟩
  | .hbm, ⟨49, _⟩ => ⟨S8x4096x2048, .bf16⟩
  | .hbm, ⟨50, _⟩ => ⟨S1x4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S8x4096x2048, .bf16⟩
  | .hbm, ⟨61, _⟩ => ⟨S32768x2048, .bf16⟩
  | .hbm, ⟨62, _⟩ => ⟨S1x2048x2048, .bf16⟩
  | .hbm, ⟨63, _⟩ => ⟨S2048x2048, .bf16⟩
  | .hbm, ⟨64, _⟩ => ⟨S1x1x2048, .f32⟩
  | .hbm, ⟨65, _⟩ => ⟨S1x2048, .f32⟩
  | .hbm, ⟨66, _⟩ => ⟨S32768x2048, .f32⟩
  | .hbm, ⟨67, _⟩ => ⟨S8x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .vmem, ⟨9, _⟩ => ⟨S1x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S2048x2048, .bf16⟩
  | .local _ .vmem, ⟨15, _⟩ => ⟨S1x2048, .f32⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S2048x2048, .bf16⟩
  | .local _ .vmem, ⟨21, _⟩ => ⟨S1x2048, .f32⟩
  | .local _ .vmem, ⟨22, _⟩ => ⟨S512x2048, .f32⟩
  | .local _ .vmem, ⟨23, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_1 : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_c_3 : Ref sig .tc := ⟨.hbm, 52, rfl⟩
abbrev main_v44 : Ref sig .tc := ⟨.hbm, 53, rfl⟩
abbrev main_v45 : Ref sig .tc := ⟨.hbm, 54, rfl⟩
abbrev main_c_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  transposes_S4x2048x2048_S4x2048x2048_0_2_1 : S4x2048x2048.Transposes [0, 2, 1] S4x2048x2048
  bitsLt_bf16_f32 : FTy.bits .bf16 < FTy.bits .f32
  shapeCasts_S4x2048_S4x1x2048 : S4x2048.ShapeCasts S4x1x2048
  shapeCasts_S8x4096x2048_S32768x2048 : S8x4096x2048.ShapeCasts S32768x2048
  slices_S4x2048x2048_S1x2048x2048_0_0_0 : S4x2048x2048.Slices ![0, 0, 0] S1x2048x2048
  shapeCasts_S1x2048x2048_S2048x2048 : S1x2048x2048.ShapeCasts S2048x2048
  slices_S4x1x2048_S1x1x2048_0_0_0 : S4x1x2048.Slices ![0, 0, 0] S1x1x2048
  shapeCasts_S1x1x2048_S1x2048 : S1x1x2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  packedbf16_S512x2048_S512x2048_0_0 : (Rect.unit (s := S512x2048) ![0, 0] S512x2048.size inb_S512x2048_S512x2048_0_0).PackedRows (EltTy.packing .bf16)
  shapeCasts_S32768x2048_S8x4096x2048 : S32768x2048.ShapeCasts S8x4096x2048
  slices_S3x4096_S1x4096_0_0 : S3x4096.Slices ![0, 0] S1x4096
  shapeCasts_S1x4096_S4096 : S1x4096.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4x2048x2048_S1x2048x2048_1_0_0 : S4x2048x2048.Slices ![1, 0, 0] S1x2048x2048
  slices_S4x1x2048_S1x1x2048_1_0_0 : S4x1x2048.Slices ![1, 0, 0] S1x1x2048
  slices_S3x4096_S1x4096_1_0 : S3x4096.Slices ![1, 0] S1x4096
  slices_S4x2048x2048_S1x2048x2048_2_0_0 : S4x2048x2048.Slices ![2, 0, 0] S1x2048x2048
  slices_S4x1x2048_S1x1x2048_2_0_0 : S4x1x2048.Slices ![2, 0, 0] S1x1x2048
  slices_S3x4096_S1x4096_2_0 : S3x4096.Slices ![2, 0] S1x4096
  slices_S4x2048x2048_S1x2048x2048_3_0_0 : S4x2048x2048.Slices ![3, 0, 0] S1x2048x2048
  slices_S4x1x2048_S1x1x2048_3_0_0 : S4x1x2048.Slices ![3, 0, 0] S1x1x2048
  dot_S512x2048_S2048x2048_S512x2048_1_0_0_1_n_n_wf : DotDims.WF S512x2048 S2048x2048 S512x2048 [1] [0] [0] [1] [] []
  gather_S8x4096x2048_S4096x1_S8x4096x2048_02_1_n_n_1_1_812048_wf : GatherDims.WF S8x4096x2048 S4096x1 S8x4096x2048 [0, 2] [1] [] [1] [] 1 ![8, 1, 2048]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S32768x2048.size a
  hwx0_3 : ∀ i : grid0.Coords, EltTy.bits .bf16 = 32 ∨ (Rect.block (s := S32768x2048) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S32768x2048.size a
  hwx1_0 : ∀ i : grid1.Coords, EltTy.bits .bf16 = 32 ∨ (Rect.block (s := S32768x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S32768x2048.size a
  hwx1_3 : ∀ i : grid1.Coords, EltTy.bits .bf16 = 32 ∨ (Rect.block (s := S32768x2048) S512x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S32768x2048.size a
  hwx2_0 : ∀ i : grid2.Coords, EltTy.bits .bf16 = 32 ∨ (Rect.block (s := S32768x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S32768x2048.size a
  hwx2_3 : ∀ i : grid2.Coords, EltTy.bits .bf16 = 32 ∨ (Rect.block (s := S32768x2048) S512x2048.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S32768x2048.size a
  hwx3_0 : ∀ i : grid3.Coords, EltTy.bits .bf16 = 32 ∨ (Rect.block (s := S32768x2048) S512x2048.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x2048.size a ≤ S2048x2048.size a
  hwx3_1 : ∀ i : grid3.Coords, EltTy.bits .bf16 = 32 ∨ (Rect.block (s := S2048x2048) S2048x2048.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x2048.size a
  hwx3_2 : ∀ i : grid3.Coords, EltTy.bits .f32 = 32 ∨ (Rect.block (s := S1x2048) S1x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x2048.size a ≤ S32768x2048.size a
  hwx3_3 : ∀ i : grid3.Coords, EltTy.bits .f32 = 32 ∨ (Rect.block (s := S32768x2048) S512x2048.size (cc3_transform_3 i) (hinb3_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def gather_S8x4096x2048_S4096x1_S8x4096x2048_02_1_n_n_1_1_812048 : GatherDims S8x4096x2048 S4096x1 S8x4096x2048 where
  offsetDims := [0, 2]
  collapsedSliceDims := [1]
  operandBatchingDims := []
  startIndicesBatchingDims := []
  startIndexMap := [1]
  indexVectorDim := 1
  sliceSizes := ![8, 1, 2048]
  wf := gather_S8x4096x2048_S4096x1_S8x4096x2048_02_1_n_n_1_1_812048_wf

abbrev win0_0 : Pipeline.Window sig grid0 :=
  Pipeline.Window.ofSpec (Memref.whole main_v3) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S2048x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S512x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8x4096x2048 : Shape := ⟨3, ![8, 4096, 2048]⟩
abbrev S4x2048x2048 : Shape := ⟨3, ![4, 2048, 2048]⟩
abbrev S4x2048 : Shape := ⟨2, ![4, 2048]⟩
abbrev S3x4096 : Shape := ⟨2, ![3, 4096]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S1x1x2048 : Shape := ⟨3, ![1, 1, 2048]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 69
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S4x2048x2048, .f32⟩
  | .hbm, ⟨2, _⟩ => ⟨S4x2048, .f32⟩
  | .hbm, ⟨3, _⟩ => ⟨S3x4096, .i32⟩
  | .hbm, ⟨4, _⟩ => ⟨S1x2048x2048, .f32⟩
  | .hbm, ⟨5, _⟩ => ⟨S2048x2048, .f32⟩
  | .hbm, ⟨6, _⟩ => ⟨S8x4096x2048, .f32⟩
  | .hbm, ⟨7, _⟩ => ⟨S1x2048, .f32⟩
  | .hbm, ⟨8, _⟩ => ⟨S2048, .f32⟩
  | .hbm, ⟨9, _⟩ => ⟨S1x1x2048, .f32⟩
  | .hbm, ⟨10, _⟩ => ⟨S8x4096x2048, .f32⟩
  | .hbm, ⟨11, _⟩ => ⟨S8x4096x2048, .f32⟩
  | .hbm, ⟨12, _⟩ => ⟨S1x4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S8x4096x2048, .f32⟩
  | .hbm, ⟨23, _⟩ => ⟨S1x2048x2048, .f32⟩
  | .hbm, ⟨24, _⟩ => ⟨S2048x2048, .f32⟩
  | .hbm, ⟨25, _⟩ => ⟨S8x4096x2048, .f32⟩
  | .hbm, ⟨26, _⟩ => ⟨S1x2048, .f32⟩
  | .hbm, ⟨27, _⟩ => ⟨S2048, .f32⟩
  | .hbm, ⟨28, _⟩ => ⟨S1x1x2048, .f32⟩
  | .hbm, ⟨29, _⟩ => ⟨S8x4096x2048, .f32⟩
  | .hbm, ⟨30, _⟩ => ⟨S8x4096x2048, .f32⟩
  | .hbm, ⟨31, _⟩ => ⟨S1x4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S8x4096x2048, .f32⟩
  | .hbm, ⟨42, _⟩ => ⟨S1x2048x2048, .f32⟩
  | .hbm, ⟨43, _⟩ => ⟨S2048x2048, .f32⟩
  | .hbm, ⟨44, _⟩ => ⟨S8x4096x2048, .f32⟩
  | .hbm, ⟨45, _⟩ => ⟨S1x2048, .f32⟩
  | .hbm, ⟨46, _⟩ => ⟨S2048, .f32⟩
  | .hbm, ⟨47, _⟩ => ⟨S1x1x2048, .f32⟩
  | .hbm, ⟨48, _⟩ => ⟨S8x4096x2048, .f32⟩
  | .hbm, ⟨49, _⟩ => ⟨S8x4096x2048, .f32⟩
  | .hbm, ⟨50, _⟩ => ⟨S1x4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S8x4096x2048, .f32⟩
  | .hbm, ⟨61, _⟩ => ⟨S1x2048x2048, .f32⟩
  | .hbm, ⟨62, _⟩ => ⟨S2048x2048, .f32⟩
  | .hbm, ⟨63, _⟩ => ⟨S8x4096x2048, .f32⟩
  | .hbm, ⟨64, _⟩ => ⟨S1x2048, .f32⟩
  | .hbm, ⟨65, _⟩ => ⟨S2048, .f32⟩
  | .hbm, ⟨66, _⟩ => ⟨S1x1x2048, .f32⟩
  | .hbm, ⟨67, _⟩ => ⟨S8x4096x2048, .f32⟩
  | .hbm, ⟨68, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_1 : Ref sig .tc := ⟨.hbm, 33, rfl⟩
abbrev main_v27 : Ref sig .tc := ⟨.hbm, 34, rfl⟩
abbrev main_v28 : Ref sig .tc := ⟨.hbm, 35, rfl⟩
abbrev main_c_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_c_3 : Ref sig .tc := ⟨.hbm, 52, rfl⟩
abbrev main_v44 : Ref sig .tc := ⟨.hbm, 53, rfl⟩
abbrev main_v45 : Ref sig .tc := ⟨.hbm, 54, rfl⟩
abbrev main_c_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩

abbrev nD : Nat := 1
abbrev τ : Topo := Topo.v7x

variable {F : FTy → Type} [FloatOps F]

class Facts₀ : Prop where
  slices_S4x2048x2048_S1x2048x2048_0_0_0 : S4x2048x2048.Slices ![0, 0, 0] S1x2048x2048
  shapeCasts_S1x2048x2048_S2048x2048 : S1x2048x2048.ShapeCasts S2048x2048
  slices_S4x2048_S1x2048_0_0 : S4x2048.Slices ![0, 0] S1x2048
  shapeCasts_S1x2048_S2048 : S1x2048.ShapeCasts S2048
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  slices_S3x4096_S1x4096_0_0 : S3x4096.Slices ![0, 0] S1x4096
  shapeCasts_S1x4096_S4096 : S1x4096.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4x2048x2048_S1x2048x2048_1_0_0 : S4x2048x2048.Slices ![1, 0, 0] S1x2048x2048
  slices_S4x2048_S1x2048_1_0 : S4x2048.Slices ![1, 0] S1x2048
  slices_S3x4096_S1x4096_1_0 : S3x4096.Slices ![1, 0] S1x4096
  slices_S4x2048x2048_S1x2048x2048_2_0_0 : S4x2048x2048.Slices ![2, 0, 0] S1x2048x2048
  slices_S4x2048_S1x2048_2_0 : S4x2048.Slices ![2, 0] S1x2048
  slices_S3x4096_S1x4096_2_0 : S3x4096.Slices ![2, 0] S1x4096
  slices_S4x2048x2048_S1x2048x2048_3_0_0 : S4x2048x2048.Slices ![3, 0, 0] S1x2048x2048
  slices_S4x2048_S1x2048_3_0 : S4x2048.Slices ![3, 0] S1x2048
  dot_S8x4096x2048_S2048x2048_S8x4096x2048_2_1_01_0_n_n_wf : DotDims.WF S8x4096x2048 S2048x2048 S8x4096x2048 [2] [1] [0, 1] [0] [] []
  gather_S8x4096x2048_S4096x1_S8x4096x2048_02_1_n_n_1_1_812048_wf : GatherDims.WF S8x4096x2048 S4096x1 S8x4096x2048 [0, 2] [1] [] [1] [] 1 ![8, 1, 2048]

variable [Facts₀]

def dot_S8x4096x2048_S2048x2048_S8x4096x2048_2_1_01_0_n_n : DotDims S8x4096x2048 S2048x2048 S8x4096x2048 where
  lhsContracting := [2]
  rhsContracting := [1]
  lhsNonContracting := [0, 1]
  rhsNonContracting := [0]
  lhsBatch := []
  rhsBatch := []
  wf := dot_S8x4096x2048_S2048x2048_S8x4096x2048_2_1_01_0_n_n_wf
def gather_S8x4096x2048_S4096x1_S8x4096x2048_02_1_n_n_1_1_812048 : GatherDims S8x4096x2048 S4096x1 S8x4096x2048 where
  offsetDims := [0, 2]
  collapsedSliceDims := [1]
  operandBatchingDims := []
  startIndicesBatchingDims := []
  startIndexMap := [1]
  indexVectorDim := 1
  sliceSizes := ![8, 1, 2048]
  wf := gather_S8x4096x2048_S4096x1_S8x4096x2048_02_1_n_n_1_1_812048_wf

class Facts : Prop extends Facts₀ where

variable [Facts]
-- ==== Proof.DenseLaw.lean ====
/-
  Two matrix products read at an index, at the ideal values.

  A product of an m×k matrix by a k×n matrix accumulated into zero, at entry (a, b), is the sum over the
  contracted coordinate c of A(a, c) · B(c, b).  A product of a stack of rows [B, S, H] with a matrix stored
  output-major [O, H] (a linear layer's weight, contracted along its second axis), at (b, s, o), is the sum over c of
  X(b, s, c) · W(o, c).  Both are plain finite sums on the extended reals: no order of summation is left in them.
-/
import Idealize.ShloMosaic.Lib.ValueIdx
import Idealize.ShloMosaic.Lib.Pipeline.Value
import Idealize.ShloMosaic.PureOps.Ideal.Laws

noncomputable section

namespace Cert.DenseLaw

open Idealize.ShloMosaic Idealize.ShloMosaic.ValueIdx

/-- The product of an m×k by a k×n matrix into the zero accumulator, at (a, b): the sum over c of A(a, c) · B(c, b). -/
theorem matmul_zero_at {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A stack of rows [B, S, H] against a weight stored output-major [O, H], contracted along H, at (b, s, o): the sum
    over c of X(b, s, c) · W(o, c). -/
theorem dotGeneral_rows_at {B S H O : Nat} {φ₁ φ₂ : FTy}
    (w : DotDims.WF ⟨3, ![B, S, H]⟩ ⟨2, ![O, H]⟩ ⟨3, ![B, S, O]⟩ [2] [1] [0, 1] [0] [] [])
    (prec : Option ContractPrecision) (X : FVec Ideal ⟨3, ![B, S, H]⟩ φ₁) (Wt : FVec Ideal ⟨2, ![O, H]⟩ φ₂)
    (b : Fin B) (s : Fin S) (o : Fin O) :
    Host.dotGeneral (⟨[2], [1], [0, 1], [0], [], [], w⟩ : DotDims _ _ _) prec X Wt (ix3 b s o)
      = ∑ c : Fin H, X (ix3 b s c) * Wt (ix2 o c) := by
  show FloatOps.dotGeneral _ prec _ X Wt (ix3 b s o) = _
  rw [Ideal.dotGeneral_apply,
    ← Equiv.sum_comp (contrEquiv1 (⟨[2], [1], [0, 1], [0], [], [], w⟩ : DotDims _ _ _) H rfl rfl).symm]
  refine Finset.sum_congr rfl fun c _ => ?_
  have c3 := contrEquiv1_symm_val
    (⟨[2], [1], [0, 1], [0], [], [], w⟩ : DotDims ⟨3, ![B, S, H]⟩ ⟨2, ![O, H]⟩ ⟨3, ![B, S, O]⟩) H rfl rfl c
  have l3 : (⟨[2], [1], [0, 1], [0], [], [], w⟩ : DotDims ⟨3, ![B, S, H]⟩ ⟨2, ![O, H]⟩ ⟨3, ![B, S, O]⟩).lhsIdx (ix3 b s o)
      ((contrEquiv1 _ H rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![B, S, H]⟩ ⟨2, ![O, H]⟩ ⟨3, ![B, S, O]⟩).rhsIdx (ix3 b s o)
      ((contrEquiv1 _ H rfl rfl).symm c) = ix2 o c := by
    funext ax; apply Fin.ext
    match ax with
    | ⟨0, _⟩ => simp [DotDims.rhsIdx]; rfl
    | ⟨1, _⟩ => simp [DotDims.rhsIdx]; exact c3
  rw [l3, r3]

end Cert.DenseLaw

end
-- ==== Proof.LayerLaw.lean ====
/-
  One linear layer, as a function of the activations, the stacked weights and the stacked biases, and the two ways a
  program spells it.

  The layer number l takes activations X[b, s, h] to  Y[b, s, o] = (sum over c of X[b, s, c] * W[l, o, c]) + Bias[l, o].

  A host program writes it as a `dot_general` of X with the l-th weight matrix (cut out of the stack and contracted along
  its second axis) plus the l-th bias row broadcast over b and s.  A tiled kernel writes it over the rows flattened to
  [b*4096 + s, h]: rows times the transposed l-th weight matrix plus the bias row, and un-flattens the result.  Both are
  the function above, index by index: the flattening is row-major, so row b*4096 + s of the flattened array is row (b, s).
-/
import Idealize.ShloMosaic.Lib.ValueIdx
import Idealize.ShloMosaic.Lib.Pipeline.Value
import Idealize.ShloMosaic.PureOps.Ideal.Laws
import proofs.«401745_j22591527977568_3_alg».proof.Proof.DenseLaw

noncomputable section

namespace Cert.DenseLaw

open Idealize.ShloMosaic Idealize.ShloMosaic.ValueIdx

/-- Activations [8, 4096, 2048]; the same rows flattened [32768, 2048]; stacked weights [4, 2048, 2048] (layer, output, input);
    stacked biases [4, 2048]. -/
abbrev SAct : Shape := ⟨3, ![8, 4096, 2048]⟩
abbrev SRows : Shape := ⟨2, ![32768, 2048]⟩
abbrev SWts : Shape := ⟨3, ![4, 2048, 2048]⟩
abbrev SBias : Shape := ⟨2, ![4, 2048]⟩
abbrev SMat : Shape := ⟨2, ![2048, 2048]⟩
abbrev SRow : Shape := ⟨2, ![1, 2048]⟩

/-- Layer `l`: Y[b, s, o] = (sum over c of X[b, s, c] * W[l, o, c]) + Bias[l, o]. -/
def layer (l : Fin 4) (X : SAct.Idx → EReal) (W : SWts.Idx → EReal) (Bias : SBias.Idx → EReal) : SAct.Idx → EReal :=
  fun i => (∑ c : Fin 2048, X (ix3 (i 0) (i 1) c) * W (ix3 l (i 2) c)) + Bias (ix2 l (i 2))

/-- Rows times a matrix plus a row: Z[r, o] = (sum over c of x[r, c] * w[c, o]) + b[0, o]. -/
def rowsTimes (x : SRows.Idx → EReal) (w : SMat.Idx → EReal) (b : SRow.Idx → EReal) : SRows.Idx → EReal :=
  fun i => (∑ c : Fin 2048, x (ix2 (i 0) c) * w (ix2 c (i 1))) + b (ix2 0 (i 1))

/-! ## The host's spelling -/

/-- Matrix `off` of the stack, cut out and reshaped to a matrix, at (o, c). -/
theorem weight_slice_at (off : Nat) (hoff : off < 4) (W : SWts.Idx → EReal)
    (hs : SWts.Slices ![off, 0, 0] ⟨3, ![1, 2048, 2048]⟩) (hc : (⟨3, ![1, 2048, 2048]⟩ : Shape).ShapeCasts SMat)
    (o c : Fin 2048) :
    shapeCast SMat (extractStridedSlice ⟨3, ![1, 2048, 2048]⟩ ![off, 0, 0] W hs) hc (ix2 o c) = W (ix3 ⟨off, hoff⟩ o c) := by
  rw [shapeCast_apply _ hc (ix2 o c) (ix3 (0 : Fin 1) o c) (by
    rw [Shape.rowMajor_val_three, Shape.rowMajor_val_two]
    show (0 * 2048 + o.val) * 2048 + c.val = o.val * 2048 + c.val
    omega)]
  exact extractStridedSlice_apply ![off, 0, 0] W hs (ix3 (0 : Fin 1) o c) (ix3 ⟨off, hoff⟩ o c) (fun a => by
    match a with
    | ⟨0, _⟩ => show off = off + 0; omega
    | ⟨1, _⟩ => show o.val = 0 + o.val; omega
    | ⟨2, _⟩ => show c.val = 0 + c.val; omega)

/-- Row `off` of the bias stack, cut out, reshaped to a vector and broadcast over (b, s), at (b, s, o). -/
theorem bias_bcast_at (off : Nat) (hoff : off < 4) (Bias : SBias.Idx → EReal)
    (hs : SBias.Slices ![off, 0] SRow) (hc : SRow.ShapeCasts ⟨1, ![2048]⟩)
    (hb1 : (⟨1, ![2048]⟩ : Shape).BroadcastsInDim ⟨3, ![1, 1, 2048]⟩ (![2] : Fin 1 → Fin 3))
    (hb2 : (⟨3, ![1, 1, 2048]⟩ : Shape).BroadcastsInDim SAct (![0, 1, 2] : Fin 3 → Fin 3))
    (b : Fin 8) (s : Fin 4096) (o : Fin 2048) :
    broadcastInDim SAct ![0, 1, 2] hb2 (broadcastInDim ⟨3, ![1, 1, 2048]⟩ ![2] hb1
      (shapeCast ⟨1, ![2048]⟩ (extractStridedSlice SRow ![off, 0] Bias hs) hc)) (ix3 b s o) = Bias (ix2 ⟨off, hoff⟩ o) := by
  rw [broadcastInDim_apply ![0, 1, 2] hb2 _ (ix3 b s o) (ix3 (0 : Fin 1) (0 : Fin 1) o) (fun a => by
    match a with
    | ⟨0, _⟩ => rfl
    | ⟨1, _⟩ => rfl
    | ⟨2, _⟩ => rfl)]
  rw [broadcastInDim_apply ![2] hb1 _ (ix3 (0 : Fin 1) (0 : Fin 1) o) (ix1 o) (fun a => by
    match a with
    | ⟨0, _⟩ => rfl)]
  rw [shapeCast_apply _ hc (ix1 o) (ix2 (0 : Fin 1) o) (by
    rw [Shape.rowMajor_val_two, Shape.rowMajor_val_one]
    show 0 * 2048 + o.val = o.val
    omega)]
  exact extractStridedSlice_apply ![off, 0] Bias hs (ix2 (0 : Fin 1) o) (ix2 ⟨off, hoff⟩ o) (fun a => by
    match a with
    | ⟨0, _⟩ => show off = off + 0; omega
    | ⟨1, _⟩ => show o.val = 0 + o.val; omega)

/-- The host's layer is `layer`. -/
theorem host_layer (off : Nat) (hoff : off < 4) {φ : FTy} (X : FVec Ideal SAct φ) (W : FVec Ideal SWts .f32) (Bias : FVec Ideal SBias .f32)
    (hd : DotDims.WF SAct SMat SAct [2] [1] [0, 1] [0] [] [])
    (hsW : SWts.Slices ![off, 0, 0] ⟨3, ![1, 2048, 2048]⟩) (hcW : (⟨3, ![1, 2048, 2048]⟩ : Shape).ShapeCasts SMat)
    (hsB : SBias.Slices ![off, 0] SRow) (hcB : SRow.ShapeCasts ⟨1, ![2048]⟩)
    (hb1 : (⟨1, ![2048]⟩ : Shape).BroadcastsInDim ⟨3, ![1, 1, 2048]⟩ (![2] : Fin 1 → Fin 3))
    (hb2 : (⟨3, ![1, 1, 2048]⟩ : Shape).BroadcastsInDim SAct (![0, 1, 2] : Fin 3 → Fin 3)) :
    (addf (F := Ideal) (φ := .f32) (Host.dotGeneral (⟨[2], [1], [0, 1], [0], [], [], hd⟩ : DotDims SAct SMat SAct) none X
        (shapeCast SMat (extractStridedSlice ⟨3, ![1, 2048, 2048]⟩ ![off, 0, 0] W hsW) hcW))
      (broadcastInDim SAct ![0, 1, 2] hb2 (broadcastInDim ⟨3, ![1, 1, 2048]⟩ ![2] hb1
        (shapeCast ⟨1, ![2048]⟩ (extractStridedSlice SRow ![off, 0] Bias hsB) hcB))) : SAct.Idx → EReal)
      = layer ⟨off, hoff⟩ X W Bias := by
  funext i
  obtain ⟨b, s, o, rfl⟩ : ∃ (b : Fin 8) (s : Fin 4096) (o : Fin 2048), i = ix3 b s o := ⟨i 0, i 1, i 2, eq_ix3 i⟩
  rw [addf_apply, dotGeneral_rows_at, bias_bcast_at off hoff]
  unfold layer
  refine congrArg (· + _) (Finset.sum_congr rfl fun c _ => ?_)
  rw [weight_slice_at off hoff]

/-! ## The tiled kernel's spelling -/

/-- Matrix `off` of the stack with every matrix transposed, cut out and reshaped to a matrix, at (c, o): the stack at
    (off, o, c). -/
theorem weightT_slice_at (off : Nat) (hoff : off < 4) (W : FVec Ideal SWts .f32)
    (hT : SWts.Transposes [0, 2, 1] SWts) (hbits : FTy.bits .bf16 < FTy.bits .f32)
    (hs : SWts.Slices ![off, 0, 0] ⟨3, ![1, 2048, 2048]⟩) (hc : (⟨3, ![1, 2048, 2048]⟩ : Shape).ShapeCasts SMat)
    (c o : Fin 2048) :
    shapeCast SMat (extractStridedSlice ⟨3, ![1, 2048, 2048]⟩ ![off, 0, 0]
      (truncf .bf16 (transpose SWts [0, 2, 1] W hT) hbits : FVec Ideal SWts .bf16) hs) hc (ix2 c o)
      = W (ix3 ⟨off, hoff⟩ o c) := by
  rw [shapeCast_apply _ hc (ix2 c o) (ix3 (0 : Fin 1) c o) (by
    rw [Shape.rowMajor_val_three, Shape.rowMajor_val_two]
    show (0 * 2048 + c.val) * 2048 + o.val = c.val * 2048 + o.val
    omega)]
  rw [extractStridedSlice_apply ![off, 0, 0] _ hs (ix3 (0 : Fin 1) c o) (ix3 ⟨off, hoff⟩ c o) (fun a => by
    match a with
    | ⟨0, _⟩ => show off = off + 0; omega
    | ⟨1, _⟩ => show c.val = 0 + c.val; omega
    | ⟨2, _⟩ => show o.val = 0 + o.val; omega)]
  rw [truncf_apply]
  exact transpose_apply [0, 2, 1] W hT (ix3 ⟨off, hoff⟩ c o) (ix3 ⟨off, hoff⟩ o c) (fun a => by
    match a with
    | ⟨0, _⟩ => rfl
    | ⟨1, _⟩ => rfl
    | ⟨2, _⟩ => rfl)

/-- Row `off` of the bias stack reshaped to [4, 1, 2048], cut out and reshaped to a one-row matrix, at (0, o): the
    stack at (off, o). -/
theorem bias_row_at (off : Nat) (hoff : off < 4) (Bias : SBias.Idx → EReal)
    (hc0 : SBias.ShapeCasts ⟨3, ![4, 1, 2048]⟩) (hs : (⟨3, ![4, 1, 2048]⟩ : Shape).Slices ![off, 0, 0] ⟨3, ![1, 1, 2048]⟩)
    (hc : (⟨3, ![1, 1, 2048]⟩ : Shape).ShapeCasts SRow) (o : Fin 2048) :
    shapeCast SRow (extractStridedSlice ⟨3, ![1, 1, 2048]⟩ ![off, 0, 0] (shapeCast ⟨3, ![4, 1, 2048]⟩ Bias hc0) hs) hc (ix2 0 o)
      = Bias (ix2 ⟨off, hoff⟩ o) := by
  rw [shapeCast_apply _ hc (ix2 (0 : Fin 1) o) (ix3 (0 : Fin 1) (0 : Fin 1) o) (by
    rw [Shape.rowMajor_val_three, Shape.rowMajor_val_two]
    show (0 * 1 + 0) * 2048 + o.val = 0 * 2048 + o.val
    omega)]
  rw [extractStridedSlice_apply ![off, 0, 0] _ hs (ix3 (0 : Fin 1) (0 : Fin 1) o) (ix3 ⟨off, hoff⟩ (0 : Fin 1) o) (fun a => by
    match a with
    | ⟨0, _⟩ => show off = off + 0; omega
    | ⟨1, _⟩ => show 0 = 0 + 0; omega
    | ⟨2, _⟩ => show o.val = 0 + o.val; omega)]
  exact shapeCast_apply Bias hc0 (ix3 ⟨off, hoff⟩ (0 : Fin 1) o) (ix2 ⟨off, hoff⟩ o) (by
    rw [Shape.rowMajor_val_two, Shape.rowMajor_val_three]
    show off * 2048 + o.val = (off * 1 + 0) * 2048 + o.val
    omega)

/-- The tiled kernel's layer, un-flattened, is `layer`: row b * 4096 + s of the flattened rows is row (b, s). -/
theorem tiled_layer (off : Nat) (hoff : off < 4) {φ : FTy} (X : FVec Ideal SAct φ) (W : FVec Ideal SWts .f32) (Bias : FVec Ideal SBias .f32)
    (hX : SAct.ShapeCasts SRows) (hY : SRows.ShapeCasts SAct)
    (hT : SWts.Transposes [0, 2, 1] SWts) (hbits : FTy.bits .bf16 < FTy.bits .f32)
    (hsW : SWts.Slices ![off, 0, 0] ⟨3, ![1, 2048, 2048]⟩) (hcW : (⟨3, ![1, 2048, 2048]⟩ : Shape).ShapeCasts SMat)
    (hcB0 : SBias.ShapeCasts ⟨3, ![4, 1, 2048]⟩) (hsB : (⟨3, ![4, 1, 2048]⟩ : Shape).Slices ![off, 0, 0] ⟨3, ![1, 1, 2048]⟩)
    (hcB : (⟨3, ![1, 1, 2048]⟩ : Shape).ShapeCasts SRow) :
    shapeCast SAct (rowsTimes (shapeCast SRows X hX)
        (shapeCast SMat (extractStridedSlice ⟨3, ![1, 2048, 2048]⟩ ![off, 0, 0]
          (truncf .bf16 (transpose SWts [0, 2, 1] W hT) hbits : FVec Ideal SWts .bf16) hsW) hcW)
        (shapeCast SRow (extractStridedSlice ⟨3, ![1, 1, 2048]⟩ ![off, 0, 0] (shapeCast ⟨3, ![4, 1, 2048]⟩ Bias hcB0) hsB) hcB)) hY
      = layer ⟨off, hoff⟩ X W Bias := by
  funext i
  obtain ⟨b, s, o, rfl⟩ : ∃ (b : Fin 8) (s : Fin 4096) (o : Fin 2048), i = ix3 b s o := ⟨i 0, i 1, i 2, eq_ix3 i⟩
  have hr : b.val * 4096 + s.val < 32768 := by have := b.isLt; have := s.isLt; omega
  rw [shapeCast_apply _ hY (ix3 b s o) (ix2 (⟨b.val * 4096 + s.val, hr⟩ : Fin 32768) o) (by
    rw [Shape.rowMajor_val_two, Shape.rowMajor_val_three]
    rfl)]
  show (∑ c : Fin 2048, shapeCast SRows X hX (ix2 (⟨b.val * 4096 + s.val, hr⟩ : Fin 32768) c)
        * shapeCast SMat (extractStridedSlice ⟨3, ![1, 2048, 2048]⟩ ![off, 0, 0]
            (truncf .bf16 (transpose SWts [0, 2, 1] W hT) hbits : FVec Ideal SWts .bf16) hsW) hcW (ix2 c o))
      + shapeCast SRow (extractStridedSlice ⟨3, ![1, 1, 2048]⟩ ![off, 0, 0] (shapeCast ⟨3, ![4, 1, 2048]⟩ Bias hcB0) hsB) hcB (ix2 0 o)
    = (∑ c : Fin 2048, X (ix3 b s c) * W (ix3 ⟨off, hoff⟩ o c)) + Bias (ix2 ⟨off, hoff⟩ o)
  rw [bias_row_at off hoff]
  refine congrArg (· + _) (Finset.sum_congr rfl fun c _ => ?_)
  rw [weightT_slice_at off hoff]
  refine congrArg (· * _) ?_
  exact shapeCast_apply X hX (ix2 (⟨b.val * 4096 + s.val, hr⟩ : Fin 32768) c) (ix3 b s c) (by
    rw [Shape.rowMajor_val_three, Shape.rowMajor_val_two]
    rfl)

end Cert.DenseLaw

end
-- ==== Proof.Region0.lean ====
/-
  Region 0 of the kernel program (the tiled call of linear layer 0), read as a value.

  The call walks 64 grid points; point t loads rows 512 t .. 512 t + 511 of the flattened activations, the whole
  transposed weight matrix and the bias row, and stores into the same rows of its output the rows times the matrix plus
  the bias row.  The blocks of the output tile its 32768 rows, so after the call the output array is, whole, the rows of
  the input array times the matrix plus the bias row.  Everything is stated at the buffer contents `V` the call is
  entered with, whatever they are.
-/
import proofs.«401745_j22591527977568_3_alg».proof.Proof.Gen.KernelIdeal.Frame
import Idealize.ShloMosaic.Lib.Pipeline.Value
import proofs.«401745_j22591527977568_3_alg».proof.Proof.LayerLaw

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx
open Cert.DenseLaw

variable (V : (c : Dev nD) → (b : Ref sig .tc) → Buf (Elt Ideal) ((c : Thread nD τ).loc b))

theorem hz : (![0, 0] : Fin 2 → Nat) = fun _ => 0 := funext fun a => by fin_cases a <;> rfl

/-- What the body stores, at row p and column q of its block: row p of the loaded rows times column q of the loaded
    matrix, plus the loaded bias row at q.  (The changes of float format are the identity on extended reals.) -/
theorem payload_at (x0 : Vec Ideal S512x2048 .f32) (x1 : Vec Ideal S2048x2048 .bf16) (x2 : Vec Ideal S1x2048 .f32)
    (p : Fin 512) (q : Fin 2048) :
    k0_pay1 x0 x1 x2 (ix2 p q) = (∑ c : Fin 2048, x0 (ix2 p c) * x1 (ix2 c q)) + x2 (ix2 0 q) := by
  unfold k0_pay1
  simp only [shapeCast_self]
  have hm := matmul_zero_at (φ₁ := .bf16) (φ₂ := .bf16) dot_S512x2048_S2048x2048_S512x2048_1_0_0_1_n_n_wf none
    (truncf .bf16 x0 bitsLt_bf16_f32) x1 p q
  have hb : broadcastTo S512x2048 x2 broadcasts_S1x2048_S512x2048 (ix2 p q) = x2 (ix2 0 q) :=
    broadcastTo_apply x2 broadcasts_S1x2048_S512x2048 (ix2 p q) (ix2 0 q) (fun a => by
      match a with
      | ⟨0, _⟩ => rfl
      | ⟨1, _⟩ => rfl)
  rw [truncf_apply, addf_apply, hb]
  exact congrArg (· + x2 (ix2 0 q)) hm

/-- The printed index maps over the 64 points: the activations' and the output's block index is (t, 0); the matrix's and
    the bias row's is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p, column k of the rows loaded at point t is row 512 t + p of the activations as the call finds them. -/
theorem rows_block_at (c : Dev nD) (t : Fin cfg0.N) (p : Fin 512) (k : Fin 2048) (r : Fin 32768) (hr : r.val = t.val * 512 + p.val) :
    iblk0 V c 0 t (ix2 p k) = V c main_v3 (ix2 r k) := by
  obtain ⟨e00, e01, -, -, -, -, -, -⟩ := idx_facts t
  show V c main_v3 (((cfg0.win 0).blk t).view.emb (ix2 p k)) = V c main_v3 (ix2 r k)
  refine congrArg (V c main_v3) (funext fun a => Fin.ext ?_)
  match a with
  | ⟨0, _⟩ => show win0_0.index t (0 : Fin 2) * 512 + 1 * p.val = r.val; omega
  | ⟨1, _⟩ => show win0_0.index t (1 : Fin 2) * 2048 + 1 * k.val = k.val; omega

/-- The matrix loaded at every point is the whole matrix as the call finds it. -/
theorem matrix_block_at (c : Dev nD) (t : Fin cfg0.N) (k q : Fin 2048) :
    iblk0 V c 1 t (ix2 k q) = V c main_v5 (ix2 k q) := by
  obtain ⟨-, -, e10, e11, -, -, -, -⟩ := idx_facts t
  show V c main_v5 (((cfg0.win 1).blk t).view.emb (ix2 k q)) = V c main_v5 (ix2 k q)
  refine congrArg (V c main_v5) (funext fun a => Fin.ext ?_)
  match a with
  | ⟨0, _⟩ => show win0_1.index t (0 : Fin 2) * 2048 + 1 * k.val = k.val; omega
  | ⟨1, _⟩ => show win0_1.index t (1 : Fin 2) * 2048 + 1 * q.val = q.val; omega

/-- The bias row loaded at every point is the bias row as the call finds it. -/
theorem bias_block_at (c : Dev nD) (t : Fin cfg0.N) (q : Fin 2048) :
    iblk0 V c 2 t (ix2 0 q) = V c main_v7 (ix2 0 q) := by
  obtain ⟨-, -, -, -, e20, e21, -, -⟩ := idx_facts t
  show V c main_v7 (((cfg0.win 2).blk t).view.emb (ix2 0 q)) = V c main_v7 (ix2 0 q)
  refine congrArg (V c main_v7) (funext fun a => Fin.ext ?_)
  match a with
  | ⟨0, _⟩ => show win0_2.index t (0 : Fin 2) * 1 + 1 * 0 = 0; omega
  | ⟨1, _⟩ => show win0_2.index t (1 : Fin 2) * 2048 + 1 * q.val = q.val; omega

/-- What point t writes back is block t of rows-times-matrix-plus-row of the arrays as the call finds them. -/
theorem flushed_eq (c : Dev nD) (t : Fin cfg0.N) :
    (dat0 V c).flushed 3 t
      = ((cfg0.win 3).blk t).view.read (Elt Ideal) (rowsTimes (V c main_v3) (V c main_v5) (V c main_v7)) := by
  show (cfg0.win 3).cut (grid0.coords t) ((dat0 V c).after 3 t) = _
  rw [after0_3]
  unfold out0_3
  rw [View.canon_unit_zero hz]
  simp only [View.ld_unit_zero (S := S512x2048) hz, View.ld_unit_zero (S := S2048x2048) hz, View.ld_unit_zero (S := S1x2048) hz]
  obtain ⟨-, -, -, -, -, -, e30, e31⟩ := idx_facts t
  funext j
  obtain ⟨p, q, rfl⟩ : ∃ (p : Fin 512) (q : Fin 2048), j = ix2 p q := ⟨j 0, j 1, eq_ix2 j⟩
  have ht : t.val < 64 := lt_of_lt_of_eq t.isLt N_0
  have hemb : ((cfg0.win 3).blk t).view.emb (ix2 p q) = (ix2 (⟨t.val * 512 + p.val, by omega⟩ : Fin 32768) q : S32768x2048.Idx) := by
    funext a; apply Fin.ext
    match a with
    | ⟨0, _⟩ => show win0_3.index t (0 : Fin 2) * 512 + 1 * p.val = t.val * 512 + p.val; omega
    | ⟨1, _⟩ => show win0_3.index t (1 : Fin 2) * 2048 + 1 * q.val = q.val; omega
  show k0_pay1 (iblk0 V c 0 t) (iblk0 V c 1 t) (iblk0 V c 2 t) (ix2 p q)
    = rowsTimes (V c main_v3) (V c main_v5) (V c main_v7) (((cfg0.win 3).blk t).view.emb (ix2 p q))
  rw [hemb]
  refine (payload_at (iblk0 V c 0 t) (iblk0 V c 1 t) (iblk0 V c 2 t) p q).trans ?_
  unfold rowsTimes
  refine congrArg₂ (· + ·) (Finset.sum_congr rfl fun k _ => ?_) (bias_block_at V c t q)
  exact congrArg₂ (· * ·) (rows_block_at V c t p k ⟨t.val * 512 + p.val, by omega⟩ rfl) (matrix_block_at V c t k q)

/-- An index of the output array is in point t's block iff each coordinate is in the block's range on its axis. -/
theorem mem_blk (t : Fin cfg0.N) (i : S32768x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v8).slice (win0_3.rect t)).set ↔ _
  rw [View.set_slice_whole, Rect.mem_set_unit]
  exact Iff.rfl

/-- Every row r of the output is in the block of point r / 512. -/
theorem cover (i : S32768x2048.Idx) : ∃ t : Fin cfg0.N, (cfg0.win 3).flush t = true ∧ i ∈ ((cfg0.win 3).blk t).view.set := by
  have hi0 : (i 0).val < 32768 := (i 0).isLt
  have hi1 : (i 1).val < 2048 := (i 1).isLt
  have hN : cfg0.N = 64 := N_0
  have hlt : (i 0).val / 512 < cfg0.N := by rw [hN]; omega
  obtain ⟨-, -, -, -, -, -, e30, e31⟩ := idx_facts ⟨(i 0).val / 512, hlt⟩
  refine ⟨⟨(i 0).val / 512, hlt⟩, flush0_3 _, ?_⟩
  rw [mem_blk]
  intro a
  match a with
  | ⟨0, _⟩ =>
    show win0_3.index ⟨(i 0).val / 512, hlt⟩ (0 : Fin 2) * 512 ≤ (i 0).val ∧ (i 0).val < win0_3.index ⟨(i 0).val / 512, hlt⟩ (0 : Fin 2) * 512 + 512
    have e : win0_3.index ⟨(i 0).val / 512, hlt⟩ (0 : Fin 2) = (i 0).val / 512 := e30
    omega
  | ⟨1, _⟩ =>
    show win0_3.index ⟨(i 0).val / 512, hlt⟩ (1 : Fin 2) * 2048 ≤ (i 1).val ∧ (i 1).val < win0_3.index ⟨(i 0).val / 512, hlt⟩ (1 : Fin 2) * 2048 + 2048
    omega

/-- After the call its output array is the rows of its input array times the matrix plus the bias row. -/
theorem final (c : Dev nD) : (dat0 V c).arrAt 3 cfg0.N = rowsTimes (V c main_v3) (V c main_v5) (V c main_v7) :=
  (dat0 V c).arrAt_eq_of_cover 3 _ (fun t _ => flushed_eq V c t) cover

end Cert.KernelIdeal.Region0

end
-- ==== Proof.Stretch.lean ====
/-
  The stretches of host operations between the kernel program's four calls, read as values: what each leaves in the
  buffers the next call loads, as a function of the buffer contents `W` the stretch starts from.

  Before the first call: the activations flattened to rows; the weight stack with each matrix transposed (and its float
  format changed, the identity on extended reals), and matrix 0 cut out of it; the bias stack reshaped, and row 0 cut
  out of it.  Between calls k-1 and k: the previous call's output un-flattened, its rows permuted along the sequence axis
  by row k-1 of the permutation table (negative entries moved up by 4096 first), and flattened again; matrix k and bias
  row k cut out.  After the last call: its output un-flattened.  A stretch leaves alone every buffer it does not write.
-/
import proofs.«401745_j22591527977568_3_alg».proof.Proof.Gen.KernelIdeal.Launch
import Idealize.ShloMosaic.Lib.StableHlo.Run
import Idealize.ShloMosaic.PureOps.Ideal

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo

variable (W : Valuation τ sig (Elt Ideal))

/-- The weight stack as the calls see it: each matrix transposed. -/
def weightsT (A : (⟨S4x2048x2048, .f32⟩ : BufTy).Contents (Elt Ideal)) : (⟨S4x2048x2048, .bf16⟩ : BufTy).Contents (Elt Ideal) :=
  truncf (F := Ideal) .bf16 (transpose S4x2048x2048 [0, 2, 1] A transposes_S4x2048x2048_S4x2048x2048_0_2_1) bitsLt_bf16_f32

/-- Matrix `off` of the transposed stack. -/
def matrixOf (off : Nat) (hs : S4x2048x2048.Slices ![off, 0, 0] S1x2048x2048) (Wt : (⟨S4x2048x2048, .bf16⟩ : BufTy).Contents (Elt Ideal)) :
    (⟨S2048x2048, .bf16⟩ : BufTy).Contents (Elt Ideal) :=
  shapeCast S2048x2048 (extractStridedSlice S1x2048x2048 ![off, 0, 0] Wt hs) shapeCasts_S1x2048x2048_S2048x2048

/-- Row `off` of the reshaped bias stack, as a one-row matrix. -/
def biasRowOf (off : Nat) (hs : S4x1x2048.Slices ![off, 0, 0] S1x1x2048) (B3 : (⟨S4x1x2048, .f32⟩ : BufTy).Contents (Elt Ideal)) :
    (⟨S1x2048, .f32⟩ : BufTy).Contents (Elt Ideal) :=
  shapeCast S1x2048 (extractStridedSlice S1x1x2048 ![off, 0, 0] B3 hs) shapeCasts_S1x1x2048_S1x2048

/-- Row `off` of the permutation table as gather indices: negative entries moved up by 4096. -/
def permIdxOf (off : Nat) (hs : S3x4096.Slices ![off, 0] S1x4096) (P : (⟨S3x4096, .i32⟩ : BufTy).Contents (Elt Ideal)) :
    (⟨S4096x1, .i32⟩ : BufTy).Contents (Elt Ideal) :=
  broadcastInDim S4096x1 ![0] bcast_S4096_S4096x1_0
    (select
      (cmpi .slt (shapeCast S4096 (extractStridedSlice S1x4096 ![off, 0] P hs) shapeCasts_S1x4096_S4096)
        (broadcastInDim S4096 ![] bcast_S_S4096 (constantI S_ 32 0#32)))
      (addi (shapeCast S4096 (extractStridedSlice S1x4096 ![off, 0] P hs) shapeCasts_S1x4096_S4096)
        (broadcastInDim S4096 ![] bcast_S_S4096 (constantI S_ 32 4096#32)))
      (shapeCast S4096 (extractStridedSlice S1x4096 ![off, 0] P hs) shapeCasts_S1x4096_S4096))

/-- A flattened array un-flattened, its rows permuted along the sequence axis, and flattened again. -/
def permuteRows (Y : (⟨S32768x2048, .bf16⟩ : BufTy).Contents (Elt Ideal)) (idx : (⟨S4096x1, .i32⟩ : BufTy).Contents (Elt Ideal)) :
    (⟨S32768x2048, .bf16⟩ : BufTy).Contents (Elt Ideal) :=
  shapeCast S32768x2048
    (Host.gather gather_S8x4096x2048_S4096x1_S8x4096x2048_02_1_n_n_1_1_812048
      (shapeCast S8x4096x2048 Y shapeCasts_S32768x2048_S8x4096x2048) idx)
    shapeCasts_S8x4096x2048_S32768x2048

/-! ## Before the first call -/

theorem s0_rows : after hostOps0 W (Proc.devRef .tc main_v3)
    = shapeCast S32768x2048 (W (Proc.devRef .tc main_arg0)) shapeCasts_S8x4096x2048_S32768x2048 := by
  after_results <;> rfl

theorem s0_weightsT : after hostOps0 W (Proc.devRef .tc main_v1) = weightsT (W (Proc.devRef .tc main_arg1)) := by
  after_results <;> rfl

theorem s0_bias3 : after hostOps0 W (Proc.devRef .tc main_v2)
    = shapeCast S4x1x2048 (W (Proc.devRef .tc main_arg2)) shapeCasts_S4x2048_S4x1x2048 := by
  after_results <;> rfl

theorem s0_mat : after hostOps0 W (Proc.devRef .tc main_v5)
    = matrixOf 0 slices_S4x2048x2048_S1x2048x2048_0_0_0 (weightsT (W (Proc.devRef .tc main_arg1))) := by
  after_results <;> rfl

theorem s0_bias : after hostOps0 W (Proc.devRef .tc main_v7)
    = biasRowOf 0 slices_S4x1x2048_S1x1x2048_0_0_0 (shapeCast S4x1x2048 (W (Proc.devRef .tc main_arg2)) shapeCasts_S4x2048_S4x1x2048) := by
  after_results <;> rfl

theorem s0_keep_perms : after hostOps0 W (Proc.devRef .tc main_arg3) = W (Proc.devRef .tc main_arg3) := by
  after_results <;> rfl

/-! ## Between calls 0 and 1 -/

theorem s1_rows : after hostOps1 W (Proc.devRef .tc main_v19)
    = permuteRows (W (Proc.devRef .tc main_v8)) (permIdxOf 0 slices_S3x4096_S1x4096_0_0 (W (Proc.devRef .tc main_arg3))) := by
  after_results <;> rfl

theorem s1_mat : after hostOps1 W (Proc.devRef .tc main_v21)
    = matrixOf 1 slices_S4x2048x2048_S1x2048x2048_1_0_0 (W (Proc.devRef .tc main_v1)) := by
  after_results <;> rfl

theorem s1_bias : after hostOps1 W (Proc.devRef .tc main_v23)
    = biasRowOf 1 slices_S4x1x2048_S1x1x2048_1_0_0 (W (Proc.devRef .tc main_v2)) := by
  after_results <;> rfl

theorem s1_keep_weightsT : after hostOps1 W (Proc.devRef .tc main_v1) = W (Proc.devRef .tc main_v1) := by
  after_results <;> rfl

theorem s1_keep_bias3 : after hostOps1 W (Proc.devRef .tc main_v2) = W (Proc.devRef .tc main_v2) := by
  after_results <;> rfl

theorem s1_keep_perms : after hostOps1 W (Proc.devRef .tc main_arg3) = W (Proc.devRef .tc main_arg3) := by
  after_results <;> rfl

/-! ## Between calls 1 and 2 -/

theorem s2_rows : after hostOps2 W (Proc.devRef .tc main_v35)
    = permuteRows (W (Proc.devRef .tc main_v24)) (permIdxOf 1 slices_S3x4096_S1x4096_1_0 (W (Proc.devRef .tc main_arg3))) := by
  after_results <;> rfl

theorem s2_mat : after hostOps2 W (Proc.devRef .tc main_v37)
    = matrixOf 2 slices_S4x2048x2048_S1x2048x2048_2_0_0 (W (Proc.devRef .tc main_v1)) := by
  after_results <;> rfl

theorem s2_bias : after hostOps2 W (Proc.devRef .tc main_v39)
    = biasRowOf 2 slices_S4x1x2048_S1x1x2048_2_0_0 (W (Proc.devRef .tc main_v2)) := by
  after_results <;> rfl

theorem s2_keep_weightsT : after hostOps2 W (Proc.devRef .tc main_v1) = W (Proc.devRef .tc main_v1) := by
  after_results <;> rfl

theorem s2_keep_bias3 : after hostOps2 W (Proc.devRef .tc main_v2) = W (Proc.devRef .tc main_v2) := by
  after_results <;> rfl

theorem s2_keep_perms : after hostOps2 W (Proc.devRef .tc main_arg3) = W (Proc.devRef .tc main_arg3) := by
  after_results <;> rfl

/-! ## Between calls 2 and 3 -/

theorem s3_rows : after hostOps3 W (Proc.devRef .tc main_v51)
    = permuteRows (W (Proc.devRef .tc main_v40)) (permIdxOf 2 slices_S3x4096_S1x4096_2_0 (W (Proc.devRef .tc main_arg3))) := by
  after_results <;> rfl

theorem s3_mat : after hostOps3 W (Proc.devRef .tc main_v53)
    = matrixOf 3 slices_S4x2048x2048_S1x2048x2048_3_0_0 (W (Proc.devRef .tc main_v1)) := by
  after_results <;> rfl

theorem s3_bias : after hostOps3 W (Proc.devRef .tc main_v55)
    = biasRowOf 3 slices_S4x1x2048_S1x1x2048_3_0_0 (W (Proc.devRef .tc main_v2)) := by
  after_results <;> rfl

theorem s3_keep_weightsT : after hostOps3 W (Proc.devRef .tc main_v1) = W (Proc.devRef .tc main_v1) := by
  after_results <;> rfl

theorem s3_keep_bias3 : after hostOps3 W (Proc.devRef .tc main_v2) = W (Proc.devRef .tc main_v2) := by
  after_results <;> rfl

theorem s3_keep_perms : after hostOps3 W (Proc.devRef .tc main_arg3) = W (Proc.devRef .tc main_arg3) := by
  after_results <;> rfl

/-! ## After the last call -/

theorem s4_result : after hostOps4 W (Proc.devRef .tc main_v57)
    = shapeCast S8x4096x2048 (W (Proc.devRef .tc main_v56)) shapeCasts_S32768x2048_S8x4096x2048 := by
  after_results <;> rfl

end Cert.KernelIdeal.Stretch

end
-- ==== Proof.KernelNet.lean ====
/-
  The kernel program's result as a function of its four arguments.

  The program is four tiled linear layers with a permutation of the rows along the sequence axis between consecutive
  ones.  Written over whole arrays: `net X W Bias P = layer 3 (perm 2 (layer 2 (perm 1 (layer 1 (perm 0 (layer 0 X))))))`,
  every layer with the stacked weights W and biases Bias, `perm j` the gather by row j of the table P.  The run is walked
  boundary by boundary: a call's output array is rows-times-matrix-plus-row of the three arrays it is entered with; a
  stretch of host operations hands the next call the previous output permuted, and the next matrix and bias row; the
  transposed weight stack, the reshaped bias stack and the permutation table are written once and never again.
  Un-flattening a call's output turns rows-times-matrix-plus-row into `layer` (the flattening is row-major).
-/
import proofs.«401745_j22591527977568_3_alg».proof.Proof.Gen.KernelIdeal.Frame
import proofs.«401745_j22591527977568_3_alg».proof.Proof.KernelRun
import proofs.«401745_j22591527977568_3_alg».proof.Proof.Region0
import proofs.«401745_j22591527977568_3_alg».proof.Proof.Region1
import proofs.«401745_j22591527977568_3_alg».proof.Proof.Region2
import proofs.«401745_j22591527977568_3_alg».proof.Proof.Region3
import proofs.«401745_j22591527977568_3_alg».proof.Proof.Stretch
import proofs.«401745_j22591527977568_3_alg».proof.Proof.LayerLaw

set_option maxRecDepth 16384

noncomputable section

namespace Cert.KernelIdeal.Net

open Cert.KernelIdeal Cert.KernelIdeal.Gen Idealize.ShloMosaic Idealize.ShloMosaic.TcCoe Idealize.SL.Sem
open Idealize.ShloMosaic.StableHlo
open Cert.KernelIdeal.Stretch Cert.DenseLaw

/-! ## The network on given contents -/

section Spec

variable (X : SAct.Idx → EReal) (Wt : SWts.Idx → EReal) (Bias : SBias.Idx → EReal)
  (P : (⟨S3x4096, .i32⟩ : BufTy).Contents (Elt Ideal))

/-- An activation array with its rows permuted along the sequence axis by row `off` of the table. -/
def permuted (off : Nat) (hs : S3x4096.Slices ![off, 0] S1x4096) (Z : SAct.Idx → EReal) : SAct.Idx → EReal :=
  Host.gather gather_S8x4096x2048_S4096x1_S8x4096x2048_02_1_n_n_1_1_812048 Z (permIdxOf off hs P)

/-- Four linear layers, the rows permuted between consecutive ones. -/
def net : SAct.Idx → EReal :=
  layer ⟨3, by decide⟩ (permuted P 2 slices_S3x4096_S1x4096_2_0 (layer ⟨2, by decide⟩ (permuted P 1 slices_S3x4096_S1x4096_1_0
    (layer ⟨1, by decide⟩ (permuted P 0 slices_S3x4096_S1x4096_0_0 (layer ⟨0, by decide⟩ X Wt Bias)) Wt Bias)) Wt Bias)) Wt Bias

/-- The first call's output, flattened: the flattened activations times matrix 0 of the transposed stack plus bias row 0. -/
def flat0 : SRows.Idx → EReal :=
  rowsTimes (shapeCast S32768x2048 X shapeCasts_S8x4096x2048_S32768x2048) (matrixOf 0 slices_S4x2048x2048_S1x2048x2048_0_0_0 (weightsT Wt))
    (biasRowOf 0 slices_S4x1x2048_S1x1x2048_0_0_0 (shapeCast S4x1x2048 Bias shapeCasts_S4x2048_S4x1x2048))

/-- A later call's output, flattened, from the previous call's: its rows permuted, times matrix `off` plus bias row `off`. -/
def flatNext (off poff : Nat) (hsW : S4x2048x2048.Slices ![off, 0, 0] S1x2048x2048) (hsB : S4x1x2048.Slices ![off, 0, 0] S1x1x2048)
    (hsP : S3x4096.Slices ![poff, 0] S1x4096) (Y : SRows.Idx → EReal) : SRows.Idx → EReal :=
  rowsTimes (permuteRows Y (permIdxOf poff hsP P)) (matrixOf off hsW (weightsT Wt))
    (biasRowOf off hsB (shapeCast S4x1x2048 Bias shapeCasts_S4x2048_S4x1x2048))

/-- The first call's output un-flattened is layer 0 of the activations. -/
theorem unflat0 : shapeCast S8x4096x2048 (flat0 X Wt Bias) shapeCasts_S32768x2048_S8x4096x2048 = layer ⟨0, by decide⟩ X Wt Bias :=
  tiled_layer (φ := .f32) 0 (by decide) X Wt Bias shapeCasts_S8x4096x2048_S32768x2048 shapeCasts_S32768x2048_S8x4096x2048
    transposes_S4x2048x2048_S4x2048x2048_0_2_1 bitsLt_bf16_f32 slices_S4x2048x2048_S1x2048x2048_0_0_0 shapeCasts_S1x2048x2048_S2048x2048
    shapeCasts_S4x2048_S4x1x2048 slices_S4x1x2048_S1x1x2048_0_0_0 shapeCasts_S1x1x2048_S1x2048

/-- A later call's output un-flattened is its layer of the previous call's un-flattened output, permuted. -/
theorem unflatNext (off poff : Nat) (hoff : off < 4) (hsW : S4x2048x2048.Slices ![off, 0, 0] S1x2048x2048)
    (hsB : S4x1x2048.Slices ![off, 0, 0] S1x1x2048) (hsP : S3x4096.Slices ![poff, 0] S1x4096) (Y : SRows.Idx → EReal) :
    shapeCast S8x4096x2048 (flatNext Wt Bias P off poff hsW hsB hsP Y) shapeCasts_S32768x2048_S8x4096x2048
      = layer ⟨off, hoff⟩ (permuted P poff hsP (shapeCast S8x4096x2048 Y shapeCasts_S32768x2048_S8x4096x2048)) Wt Bias :=
  tiled_layer (φ := .f32) off hoff (permuted P poff hsP (shapeCast S8x4096x2048 Y shapeCasts_S32768x2048_S8x4096x2048)) Wt Bias
    shapeCasts_S8x4096x2048_S32768x2048 shapeCasts_S32768x2048_S8x4096x2048
    transposes_S4x2048x2048_S4x2048x2048_0_2_1 bitsLt_bf16_f32 hsW shapeCasts_S1x2048x2048_S2048x2048
    shapeCasts_S4x2048_S4x1x2048 hsB shapeCasts_S1x1x2048_S1x2048

/-- The last call's output un-flattened is the network. -/
theorem unflat_net :
    shapeCast S8x4096x2048
        (flatNext Wt Bias P 3 2 slices_S4x2048x2048_S1x2048x2048_3_0_0 slices_S4x1x2048_S1x1x2048_3_0_0 slices_S3x4096_S1x4096_2_0
          (flatNext Wt Bias P 2 1 slices_S4x2048x2048_S1x2048x2048_2_0_0 slices_S4x1x2048_S1x1x2048_2_0_0 slices_S3x4096_S1x4096_1_0
            (flatNext Wt Bias P 1 0 slices_S4x2048x2048_S1x2048x2048_1_0_0 slices_S4x1x2048_S1x1x2048_1_0_0 slices_S3x4096_S1x4096_0_0 (flat0 X Wt Bias))))
        shapeCasts_S32768x2048_S8x4096x2048
      = net X Wt Bias P := by
  have e0 := unflat0 X Wt Bias
  have e1 := (unflatNext Wt Bias P 1 0 (by decide) slices_S4x2048x2048_S1x2048x2048_1_0_0 slices_S4x1x2048_S1x1x2048_1_0_0 slices_S3x4096_S1x4096_0_0 (flat0 X Wt Bias)).trans
    (congrArg (fun Z => layer ⟨1, by decide⟩ (permuted P 0 slices_S3x4096_S1x4096_0_0 Z) Wt Bias) e0)
  have e2 := (unflatNext Wt Bias P 2 1 (by decide) slices_S4x2048x2048_S1x2048x2048_2_0_0 slices_S4x1x2048_S1x1x2048_2_0_0 slices_S3x4096_S1x4096_1_0 _).trans
    (congrArg (fun Z => layer ⟨2, by decide⟩ (permuted P 1 slices_S3x4096_S1x4096_1_0 Z) Wt Bias) e1)
  exact (unflatNext Wt Bias P 3 2 (by decide) slices_S4x2048x2048_S1x2048x2048_3_0_0 slices_S4x1x2048_S1x1x2048_3_0_0 slices_S3x4096_S1x4096_2_0 _).trans
    (congrArg (fun Z => layer ⟨3, by decide⟩ (permuted P 2 slices_S3x4096_S1x4096_2_0 Z) Wt Bias) e2)

end Spec

/-! ## The run, boundary by boundary -/

section Run

variable (m : (ℓ : Loc nD τ sig) → Buf (Elt Ideal) ℓ) (ρ : Dev nD → PrngReg) (c : Dev nD)

/-- The four arguments as launched, on core `c`. -/
abbrev argX : Buf (Elt Ideal) ((c : Thread nD τ).loc main_arg0) := m ((c : Thread nD τ).loc main_arg0)
abbrev argW : Buf (Elt Ideal) ((c : Thread nD τ).loc main_arg1) := m ((c : Thread nD τ).loc main_arg1)
abbrev argB : Buf (Elt Ideal) ((c : Thread nD τ).loc main_arg2) := m ((c : Thread nD τ).loc main_arg2)
abbrev argP : Buf (Elt Ideal) ((c : Thread nD τ).loc main_arg3) := m ((c : Thread nD τ).loc main_arg3)

/-! The transposed weight stack, the reshaped bias stack and the permutation table, at every boundary up to the last
    call's entry: written before the first call (the table: an argument), then left alone. -/

theorem weightsT1 : W1 m ρ c (Proc.devRef .tc main_v1) = weightsT (argW m c) := s0_weightsT (W0 m ρ c)
theorem weightsT2 : W2 m ρ c (Proc.devRef .tc main_v1) = weightsT (argW m c) := (W2_of_ne m ρ c main_v1 (by decide)).trans (weightsT1 m ρ c)
theorem weightsT3 : W3 m ρ c (Proc.devRef .tc main_v1) = weightsT (argW m c) := (s1_keep_weightsT (W2 m ρ c)).trans (weightsT2 m ρ c)
theorem weightsT4 : W4 m ρ c (Proc.devRef .tc main_v1) = weightsT (argW m c) := (W4_of_ne m ρ c main_v1 (by decide)).trans (weightsT3 m ρ c)
theorem weightsT5 : W5 m ρ c (Proc.devRef .tc main_v1) = weightsT (argW m c) := (s2_keep_weightsT (W4 m ρ c)).trans (weightsT4 m ρ c)
theorem weightsT6 : W6 m ρ c (Proc.devRef .tc main_v1) = weightsT (argW m c) := (W6_of_ne m ρ c main_v1 (by decide)).trans (weightsT5 m ρ c)

theorem bias31 : W1 m ρ c (Proc.devRef .tc main_v2) = shapeCast S4x1x2048 (argB m c) shapeCasts_S4x2048_S4x1x2048 := s0_bias3 (W0 m ρ c)
theorem bias32 : W2 m ρ c (Proc.devRef .tc main_v2) = shapeCast S4x1x2048 (argB m c) shapeCasts_S4x2048_S4x1x2048 := (W2_of_ne m ρ c main_v2 (by decide)).trans (bias31 m ρ c)
theorem bias33 : W3 m ρ c (Proc.devRef .tc main_v2) = shapeCast S4x1x2048 (argB m c) shapeCasts_S4x2048_S4x1x2048 := (s1_keep_bias3 (W2 m ρ c)).trans (bias32 m ρ c)
theorem bias34 : W4 m ρ c (Proc.devRef .tc main_v2) = shapeCast S4x1x2048 (argB m c) shapeCasts_S4x2048_S4x1x2048 := (W4_of_ne m ρ c main_v2 (by decide)).trans (bias33 m ρ c)
theorem bias35 : W5 m ρ c (Proc.devRef .tc main_v2) = shapeCast S4x1x2048 (argB m c) shapeCasts_S4x2048_S4x1x2048 := (s2_keep_bias3 (W4 m ρ c)).trans (bias34 m ρ c)
theorem bias36 : W6 m ρ c (Proc.devRef .tc main_v2) = shapeCast S4x1x2048 (argB m c) shapeCasts_S4x2048_S4x1x2048 := (W6_of_ne m ρ c main_v2 (by decide)).trans (bias35 m ρ c)

theorem perms1 : W1 m ρ c (Proc.devRef .tc main_arg3) = (argP m c) := s0_keep_perms (W0 m ρ c)
theorem perms2 : W2 m ρ c (Proc.devRef .tc main_arg3) = (argP m c) := (W2_of_ne m ρ c main_arg3 (by decide)).trans (perms1 m ρ c)
theorem perms3 : W3 m ρ c (Proc.devRef .tc main_arg3) = (argP m c) := (s1_keep_perms (W2 m ρ c)).trans (perms2 m ρ c)
theorem perms4 : W4 m ρ c (Proc.devRef .tc main_arg3) = (argP m c) := (W4_of_ne m ρ c main_arg3 (by decide)).trans (perms3 m ρ c)
theorem perms5 : W5 m ρ c (Proc.devRef .tc main_arg3) = (argP m c) := (s2_keep_perms (W4 m ρ c)).trans (perms4 m ρ c)
theorem perms6 : W6 m ρ c (Proc.devRef .tc main_arg3) = (argP m c) := (W6_of_ne m ρ c main_arg3 (by decide)).trans (perms5 m ρ c)

/-! Each call's output array at its exit. -/

theorem out0 : W2 m ρ c (Proc.devRef .tc main_v8) = flat0 (argX m c) (argW m c) (argB m c) := by
  refine (W2_arr m ρ c 3).trans ((Region0.final (V1 m ρ) c).trans ?_)
  show rowsTimes (after hostOps0 (W0 m ρ c) (Proc.devRef .tc main_v3)) (after hostOps0 (W0 m ρ c) (Proc.devRef .tc main_v5))
    (after hostOps0 (W0 m ρ c) (Proc.devRef .tc main_v7)) = _
  rw [s0_rows, s0_mat, s0_bias]
  rfl

theorem out1 : W4 m ρ c (Proc.devRef .tc main_v24) = (flatNext (argW m c) (argB m c) (argP m c) 1 0 slices_S4x2048x2048_S1x2048x2048_1_0_0 slices_S4x1x2048_S1x1x2048_1_0_0 slices_S3x4096_S1x4096_0_0 (flat0 (argX m c) (argW m c) (argB m c))) := by
  refine (W4_arr m ρ c 3).trans ((Region1.final (V3 m ρ) c).trans ?_)
  show rowsTimes (after hostOps1 (W2 m ρ c) (Proc.devRef .tc main_v19)) (after hostOps1 (W2 m ρ c) (Proc.devRef .tc main_v21))
    (after hostOps1 (W2 m ρ c) (Proc.devRef .tc main_v23)) = _
  rw [s1_rows, s1_mat, s1_bias, out0, weightsT2, bias32, perms2]
  rfl

theorem out2 : W6 m ρ c (Proc.devRef .tc main_v40) = (flatNext (argW m c) (argB m c) (argP m c) 2 1 slices_S4x2048x2048_S1x2048x2048_2_0_0 slices_S4x1x2048_S1x1x2048_2_0_0 slices_S3x4096_S1x4096_1_0 (flatNext (argW m c) (argB m c) (argP m c) 1 0 slices_S4x2048x2048_S1x2048x2048_1_0_0 slices_S4x1x2048_S1x1x2048_1_0_0 slices_S3x4096_S1x4096_0_0 (flat0 (argX m c) (argW m c) (argB m c)))) := by
  refine (W6_arr m ρ c 3).trans ((Region2.final (V5 m ρ) c).trans ?_)
  show rowsTimes (after hostOps2 (W4 m ρ c) (Proc.devRef .tc main_v35)) (after hostOps2 (W4 m ρ c) (Proc.devRef .tc main_v37))
    (after hostOps2 (W4 m ρ c) (Proc.devRef .tc main_v39)) = _
  rw [s2_rows, s2_mat, s2_bias, out1, weightsT4, bias34, perms4]
  rfl

theorem out3 : W8 m ρ c (Proc.devRef .tc main_v56) = (flatNext (argW m c) (argB m c) (argP m c) 3 2 slices_S4x2048x2048_S1x2048x2048_3_0_0 slices_S4x1x2048_S1x1x2048_3_0_0 slices_S3x4096_S1x4096_2_0 (flatNext (argW m c) (argB m c) (argP m c) 2 1 slices_S4x2048x2048_S1x2048x2048_2_0_0 slices_S4x1x2048_S1x1x2048_2_0_0 slices_S3x4096_S1x4096_1_0 (flatNext (argW m c) (argB m c) (argP m c) 1 0 slices_S4x2048x2048_S1x2048x2048_1_0_0 slices_S4x1x2048_S1x1x2048_1_0_0 slices_S3x4096_S1x4096_0_0 (flat0 (argX m c) (argW m c) (argB m c))))) := by
  refine (W8_arr m ρ c 3).trans ((Region3.final (V7 m ρ) c).trans ?_)
  show rowsTimes (after hostOps3 (W6 m ρ c) (Proc.devRef .tc main_v51)) (after hostOps3 (W6 m ρ c) (Proc.devRef .tc main_v53))
    (after hostOps3 (W6 m ρ c) (Proc.devRef .tc main_v55)) = _
  rw [s3_rows, s3_mat, s3_bias, out2, weightsT6, bias36, perms6]
  rfl

/-- The result array at the last boundary is the network of the arguments as launched. -/
theorem result_eq : W9 m ρ c (Proc.devRef .tc main_v57) = net (argX m c) (argW m c) (argB m c) (argP m c) :=
  (s4_result (W8 m ρ c)).trans
    ((congrArg (fun Y => shapeCast S8x4096x2048 Y shapeCasts_S32768x2048_S8x4096x2048) (out3 m ρ c)).trans
      (unflat_net (argX m c) (argW m c) (argB m c) (argP m c)))

end Run

/-- Every weakly fair execution of the kernel program terminates, nothing faulting, with its result array at the network of
    its arguments and the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v57)
        = net (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Cert.KernelIdeal.RunValue.run_result m ρ)

end Cert.KernelIdeal.Net

end
-- ==== Proof.RefValue.lean ====
/-
  The reference program's result as a function of its four arguments.

  The reference is a straight line of host operations; its generated run states the result array as one nested term of
  the arguments.  That term is four host layers — a `dot_general` with the layer's weight matrix, contracted along the
  matrix's second axis, plus the layer's bias row broadcast over batch and sequence — with a gather of the rows along the
  sequence axis between consecutive ones.  Each host layer is `layer` (index by index: the product is a finite sum over
  the contracted coordinate), so the result is the same network of layers and permutations the kernel program computes.
-/
import proofs.«401745_j22591527977568_3_alg».proof.Proof.Gen.ReferenceIdeal.Run
import proofs.«401745_j22591527977568_3_alg».proof.Proof.LayerLaw

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem
open Cert.DenseLaw

section Spec

variable (X : SAct.Idx → EReal) (Wt : SWts.Idx → EReal) (Bias : SBias.Idx → EReal)
  (P : (⟨S3x4096, .i32⟩ : BufTy).Contents (Elt Ideal))

/-- Row `off` of the permutation table as gather indices: negative entries moved up by 4096. -/
def permIdxOf (off : Nat) (hs : S3x4096.Slices ![off, 0] S1x4096) : (⟨S4096x1, .i32⟩ : BufTy).Contents (Elt Ideal) :=
  broadcastInDim S4096x1 ![0] bcast_S4096_S4096x1_0
    (select
      (cmpi .slt (shapeCast S4096 (extractStridedSlice S1x4096 ![off, 0] P hs) shapeCasts_S1x4096_S4096)
        (broadcastInDim S4096 ![] bcast_S_S4096 (constantI S_ 32 0#32)))
      (addi (shapeCast S4096 (extractStridedSlice S1x4096 ![off, 0] P hs) shapeCasts_S1x4096_S4096)
        (broadcastInDim S4096 ![] bcast_S_S4096 (constantI S_ 32 4096#32)))
      (shapeCast S4096 (extractStridedSlice S1x4096 ![off, 0] P hs) shapeCasts_S1x4096_S4096))

/-- An activation array with its rows permuted along the sequence axis by row `off` of the table. -/
def permuted (off : Nat) (hs : S3x4096.Slices ![off, 0] S1x4096) (Z : SAct.Idx → EReal) : SAct.Idx → EReal :=
  Host.gather gather_S8x4096x2048_S4096x1_S8x4096x2048_02_1_n_n_1_1_812048 Z (permIdxOf P off hs)

/-- The host's layer `off`: the product with weight matrix `off` plus bias row `off` broadcast. -/
def hostLayer (off : Nat) (hsW : S4x2048x2048.Slices ![off, 0, 0] S1x2048x2048) (hsB : S4x2048.Slices ![off, 0] S1x2048)
    (Z : SAct.Idx → EReal) : SAct.Idx → EReal :=
  addf (F := Ideal) (φ := .f32)
    (Host.dotGeneral (φ₁ := .f32) (φ₂ := .f32) dot_S8x4096x2048_S2048x2048_S8x4096x2048_2_1_01_0_n_n none Z
      (shapeCast S2048x2048 (extractStridedSlice S1x2048x2048 ![off, 0, 0] Wt hsW) shapeCasts_S1x2048x2048_S2048x2048))
    (broadcastInDim S8x4096x2048 ![0, 1, 2] bcast_S1x1x2048_S8x4096x2048_0_1_2
      (broadcastInDim S1x1x2048 ![2] bcast_S2048_S1x1x2048_2
        (shapeCast S2048 (extractStridedSlice S1x2048 ![off, 0] Bias hsB) shapeCasts_S1x2048_S2048)))

/-- The host's layer is `layer`. -/
theorem hostLayer_eq (off : Nat) (hoff : off < 4) (hsW : S4x2048x2048.Slices ![off, 0, 0] S1x2048x2048)
    (hsB : S4x2048.Slices ![off, 0] S1x2048) (Z : SAct.Idx → EReal) :
    hostLayer Wt Bias off hsW hsB Z = layer ⟨off, hoff⟩ Z Wt Bias :=
  host_layer (φ := .f32) off hoff Z Wt Bias dot_S8x4096x2048_S2048x2048_S8x4096x2048_2_1_01_0_n_n_wf hsW shapeCasts_S1x2048x2048_S2048x2048
    hsB shapeCasts_S1x2048_S2048 bcast_S2048_S1x1x2048_2 bcast_S1x1x2048_S8x4096x2048_0_1_2

/-- Four linear layers, the rows permuted between consecutive ones. -/
def net : SAct.Idx → EReal :=
  layer ⟨3, by decide⟩ (permuted P 2 slices_S3x4096_S1x4096_2_0 (layer ⟨2, by decide⟩ (permuted P 1 slices_S3x4096_S1x4096_1_0
    (layer ⟨1, by decide⟩ (permuted P 0 slices_S3x4096_S1x4096_0_0 (layer ⟨0, by decide⟩ X Wt Bias)) Wt Bias)) Wt Bias)) Wt Bias

/-- The four host layers with the gathers between them are the network. -/
theorem hostNet_eq :
    hostLayer Wt Bias 3 slices_S4x2048x2048_S1x2048x2048_3_0_0 slices_S4x2048_S1x2048_3_0 (permuted P 2 slices_S3x4096_S1x4096_2_0
      (hostLayer Wt Bias 2 slices_S4x2048x2048_S1x2048x2048_2_0_0 slices_S4x2048_S1x2048_2_0 (permuted P 1 slices_S3x4096_S1x4096_1_0
        (hostLayer Wt Bias 1 slices_S4x2048x2048_S1x2048x2048_1_0_0 slices_S4x2048_S1x2048_1_0 (permuted P 0 slices_S3x4096_S1x4096_0_0
          (hostLayer Wt Bias 0 slices_S4x2048x2048_S1x2048x2048_0_0_0 slices_S4x2048_S1x2048_0_0 X))))))
      = net X Wt Bias P := by
  have e0 := hostLayer_eq Wt Bias 0 (by decide) slices_S4x2048x2048_S1x2048x2048_0_0_0 slices_S4x2048_S1x2048_0_0 X
  have e1 := (hostLayer_eq Wt Bias 1 (by decide) slices_S4x2048x2048_S1x2048x2048_1_0_0 slices_S4x2048_S1x2048_1_0 _).trans
    (congrArg (fun Z => layer ⟨1, by decide⟩ (permuted P 0 slices_S3x4096_S1x4096_0_0 Z) Wt Bias) e0)
  have e2 := (hostLayer_eq Wt Bias 2 (by decide) slices_S4x2048x2048_S1x2048x2048_2_0_0 slices_S4x2048_S1x2048_2_0 _).trans
    (congrArg (fun Z => layer ⟨2, by decide⟩ (permuted P 1 slices_S3x4096_S1x4096_1_0 Z) Wt Bias) e1)
  exact (hostLayer_eq Wt Bias 3 (by decide) slices_S4x2048x2048_S1x2048x2048_3_0_0 slices_S4x2048_S1x2048_3_0 _).trans
    (congrArg (fun Z => layer ⟨3, by decide⟩ (permuted P 2 slices_S3x4096_S1x4096_2_0 Z) Wt Bias) e2)

end Spec

/-- The run's result term is the network of the arguments as launched. -/
theorem result_eq (m : (ℓ : Loc nD τ sig) → Buf (Elt Ideal) ℓ) (c : Dev nD) :
    res_out0 (F := Ideal) m c
      = net (m ((c.tc : Thread nD τ).loc main_arg0)) (m ((c.tc : Thread nD τ).loc main_arg1))
          (m ((c.tc : Thread nD τ).loc main_arg2)) (m ((c.tc : Thread nD τ).loc main_arg3)) :=
  Eq.trans (by show res_main_v58 m c = _; unfold res_main_v58; rfl)
    (hostNet_eq (m ((c.tc : Thread nD τ).loc main_arg0)) (m ((c.tc : Thread nD τ).loc main_arg1))
      (m ((c.tc : Thread nD τ).loc main_arg2)) (m ((c.tc : Thread nD τ).loc main_arg3)))

end Cert.ReferenceIdeal.RefValue

end
-- ==== Proof.lean ====
/-
  Four linear layers with a permutation of the rows between consecutive ones: the tiled kernel program against the
  host reference, over the extended reals.

  Layer l takes activations X[b, s, h] to (sum over c of X[b, s, c] * W[l, o, c]) + Bias[l, o]; between layers the rows
  are permuted along the sequence axis by a row of an integer table (negative entries moved up by the axis length,
  then a gather).  The kernel program runs each layer as a tiled call over the rows flattened to [b * 4096 + s, h],
  against the weight matrix transposed beforehand, 512 rows a grid point, the whole contraction in one product into a
  zero accumulator; the reference runs it as one `dot_general` plus a broadcast bias.  At the ideal values a change of
  float format is the identity and both products are the same finite sum over the contracted coordinate, so each
  side's layer is the function above; the blocks of a call's output tile its rows, so the call's output array is the
  layer of its input array; the gathers are the same function of the same index arrays on both sides.  No law that
  needs finite entries is used: the claim holds for all extended-real inputs and any integer table.
-/
import proofs.«401745_j22591527977568_3_alg».proof.Defs
import proofs.«401745_j22591527977568_3_alg».proof.Proof.Gen.Kernel
import proofs.«401745_j22591527977568_3_alg».proof.Proof.Gen.Kernel.Frame
import proofs.«401745_j22591527977568_3_alg».proof.Proof.Gen.KernelIdeal
import proofs.«401745_j22591527977568_3_alg».proof.Proof.Gen.KernelIdeal.Frame
import proofs.«401745_j22591527977568_3_alg».proof.Proof.Gen.ReferenceIdeal
import proofs.«401745_j22591527977568_3_alg».proof.Proof.Gen.ReferenceIdeal.Run
import proofs.«401745_j22591527977568_3_alg».proof.Proof.Gen.Pre_finite_inputs
import proofs.«401745_j22591527977568_3_alg».proof.Proof.KernelNet
import proofs.«401745_j22591527977568_3_alg».proof.Proof.RefValue
import Idealize.ShloMosaic.Adequacy
import Idealize.ShloMosaic.Init

noncomputable section

namespace Cert.Proof

open Idealize.ShloMosaic Idealize.SL.Sem Cert.DenseLaw

/-- The two programs' networks are one function: the layers are shared, and the permutations gather by the same
    dimension numbers and the same index arithmetic. -/
theorem nets_agree (X : SAct.Idx → EReal) (Wt : SWts.Idx → EReal) (Bias : SBias.Idx → EReal)
    (P : (⟨Cert.KernelIdeal.S3x4096, .i32⟩ : BufTy).Contents (Elt Ideal)) :
    Cert.ReferenceIdeal.RefValue.net X Wt Bias P = Cert.KernelIdeal.Net.net X Wt Bias P := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with their result array at the network of the arguments. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  rw [(hagree c).1, (hagree c).2.1, (hagree c).2.2.1, (hagree c).2.2.2]
  exact nets_agree _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
